-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x32 : Shape := ⟨2, ![4194304, 32]⟩
abbrev S4194304 : Shape := ⟨1, ![4194304]⟩
abbrev S8x32x32 : Shape := ⟨3, ![8, 32, 32]⟩
abbrev S_ : Shape := ⟨0, ![]⟩

class Facts : Prop where
  bcast_S_S4194304x32 : S_.BroadcastsInDim S4194304x32 (![] : Fin 0 → Fin S4194304x32.rank)
  reducesTo_S4194304x32_S_d0_1 : S4194304x32.ReducesTo [0, 1] S_
  h_S_ : 0 < S_.numel
  bcast_S_S8x32x32 : S_.BroadcastsInDim S8x32x32 (![] : Fin 0 → Fin S8x32x32.rank)
  reducesTo_S8x32x32_S_d0_1_2 : S8x32x32.ReducesTo [0, 1, 2] S_

variable [Facts]

def fn {F : FTy → Type} [FloatOps F] (main_arg0 : FVec F S4194304x32 .f32) (main_arg1 : FVec F S4194304x32 .f32) (main_arg2 : IVec S4194304 32) (main_arg3 : FVec F S8x32x32 .f32) : IVec S_ 1 :=
  let main_v0 : FVec F S4194304x32 .f32 := Host.absf main_arg0
  let main_cst : FVec F S_ .f32 := constant S_ .f32 0x7F800000#32
  let main_v1 : FVec F S4194304x32 .f32 := broadcastInDim S4194304x32 ![] bcast_S_S4194304x32 main_cst
  let main_v2 : IVec S4194304x32 1 := cmpf .olt main_v0 main_v1
  let main_c : IVec S_ 1 := constantI S_ 1 1#1
  let main_v3 : IVec S_ 1 := (fun x v => Host.reduce IntOp.andi x v reducesTo_S4194304x32_S_d0_1 h_S_) main_v2 main_c
  let main_v4 : FVec F S4194304x32 .f32 := Host.absf main_arg1
  let main_cst_0 : FVec F S_ .f32 := constant S_ .f32 0x7F800000#32
  let main_v5 : FVec F S4194304x32 .f32 := broadcastInDim S4194304x32 ![] bcast_S_S4194304x32 main_cst_0
  let main_v6 : IVec S4194304x32 1 := cmpf .olt main_v4 main_v5
  let main_c_1 : IVec S_ 1 := constantI S_ 1 1#1
  let main_v7 : IVec S_ 1 := (fun x v => Host.reduce IntOp.andi x v reducesTo_S4194304x32_S_d0_1 h_S_) main_v6 main_c_1
  let main_v8 : IVec S_ 1 := andi main_v3 main_v7
  let main_v9 : FVec F S8x32x32 .f32 := Host.absf main_arg3
  let main_cst_2 : FVec F S_ .f32 := constant S_ .f32 0x7F800000#32
  let main_v10 : FVec F S8x32x32 .f32 := broadcastInDim S8x32x32 ![] bcast_S_S8x32x32 main_cst_2
  let main_v11 : IVec S8x32x32 1 := cmpf .olt main_v9 main_v10
  let main_c_3 : IVec S_ 1 := constantI S_ 1 1#1
  let main_v12 : IVec S_ 1 := (fun x v => Host.reduce IntOp.andi x v reducesTo_S8x32x32_S_d0_1_2 h_S_) main_v11 main_c_3
  let main_v13 : IVec S_ 1 := andi main_v8 main_v12
  main_v13
-- ==== Kernel.lean ====
abbrev S4194304x32 : Shape := ⟨2, ![4194304, 32]⟩
abbrev S4194304 : Shape := ⟨1, ![4194304]⟩
abbrev S8x32x32 : Shape := ⟨3, ![8, 32, 32]⟩
abbrev S16384x32 : Shape := ⟨2, ![16384, 32]⟩
abbrev S16384 : Shape := ⟨1, ![16384]⟩
abbrev S512x32 : Shape := ⟨2, ![512, 32]⟩
abbrev S512 : Shape := ⟨1, ![512]⟩
abbrev S1x32x32 : Shape := ⟨3, ![1, 32, 32]⟩
abbrev S32x32 : Shape := ⟨2, ![32, 32]⟩

abbrev nBuf : Space → Nat
  | .hbm => 5
  | .vmem => 9
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S4194304, .i32⟩
  | .hbm, ⟨3, _⟩ => ⟨S8x32x32, .f32⟩
  | .hbm, ⟨4, _⟩ => ⟨S4194304, .f32⟩
  | .local _ .vmem, ⟨0, _⟩ => ⟨S16384x32, .f32⟩
  | .local _ .vmem, ⟨1, _⟩ => ⟨S16384x32, .f32⟩
  | .local _ .vmem, ⟨2, _⟩ => ⟨S16384x32, .f32⟩
  | .local _ .vmem, ⟨3, _⟩ => ⟨S16384x32, .f32⟩
  | .local _ .vmem, ⟨4, _⟩ => ⟨S16384, .i32⟩
  | .local _ .vmem, ⟨5, _⟩ => ⟨S16384, .i32⟩
  | .local _ .vmem, ⟨6, _⟩ => ⟨S8x32x32, .f32⟩
  | .local _ .vmem, ⟨7, _⟩ => ⟨S16384, .f32⟩
  | .local _ .vmem, ⟨8, _⟩ => ⟨S16384, .f32⟩
  | _, _ => ⟨S4194304x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v3 : Index := Scalar.indexCast v2
  let c0 : Index := 0#32
  ![v3.toNat, 0]
def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v8 : Index := Scalar.indexCast v2
  ![v8.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S512x32 : 0 < S512x32.numel
  bitsLt_bf16_f32 : FTy.bits .bf16 < FTy.bits .f32
  h_S512 : 0 < S512.numel
  inb_S8x32x32_S1x32x32_0_0_0 : ∀ a, (![0, 0, 0] : Fin 3 → Nat) a + S1x32x32.size a ≤ S8x32x32.size a
  h_S1x32x32 : 0 < S1x32x32.numel
  shapeCasts_S1x32x32_S32x32 : S1x32x32.ShapeCasts S32x32
  reduces_S512x32_S512 : S512x32.Reduces [1] S512
  inb_S8x32x32_S1x32x32_1_0_0 : ∀ a, (![1, 0, 0] : Fin 3 → Nat) a + S1x32x32.size a ≤ S8x32x32.size a
  inb_S8x32x32_S1x32x32_2_0_0 : ∀ a, (![2, 0, 0] : Fin 3 → Nat) a + S1x32x32.size a ≤ S8x32x32.size a
  inb_S8x32x32_S1x32x32_3_0_0 : ∀ a, (![3, 0, 0] : Fin 3 → Nat) a + S1x32x32.size a ≤ S8x32x32.size a
  inb_S8x32x32_S1x32x32_4_0_0 : ∀ a, (![4, 0, 0] : Fin 3 → Nat) a + S1x32x32.size a ≤ S8x32x32.size a
  inb_S8x32x32_S1x32x32_5_0_0 : ∀ a, (![5, 0, 0] : Fin 3 → Nat) a + S1x32x32.size a ≤ S8x32x32.size a
  inb_S8x32x32_S1x32x32_6_0_0 : ∀ a, (![6, 0, 0] : Fin 3 → Nat) a + S1x32x32.size a ≤ S8x32x32.size a
  inb_S8x32x32_S1x32x32_7_0_0 : ∀ a, (![7, 0, 0] : Fin 3 → Nat) a + S1x32x32.size a ≤ S8x32x32.size a
  dot_S512x32_S32x32_S512x32_1_0_0_1_n_n_wf : DotDims.WF S512x32 S32x32 S512x32 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x32.size a ≤ S16384x32.size a
  k0_off2_inb : ∀ k0_t1 : Fin k0_t1_loop.trips, ∀ a, (k0_off2 k0_t1) a + S512.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S4194304x32.size a
  hwx0_0 : ∀ i : grid0.Coords, EltTy.bits .f32 = 32 ∨ (Rect.block (s := S4194304x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S4194304x32.size a
  hwx0_1 : ∀ i : grid0.Coords, EltTy.bits .f32 = 32 ∨ (Rect.block (s := S4194304x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S4194304.size a
  hwx0_2 : ∀ i : grid0.Coords, EltTy.bits .i32 = 32 ∨ (Rect.block (s := S4194304) S16384.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32x32.size a ≤ S8x32x32.size a
  hwx0_3 : ∀ i : grid0.Coords, EltTy.bits .f32 = 32 ∨ (Rect.block (s := S8x32x32) S8x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16384.size a ≤ S4194304.size a
  hwx0_4 : ∀ i : grid0.Coords, EltTy.bits .f32 = 32 ∨ (Rect.block (s := S4194304) S16384.size (cc0_transform_4 i) (hinb0_4 i)).WholeWords (EltTy.packing .f32)

variable [Facts₀]

def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x32 : Shape := ⟨2, ![4194304, 32]⟩
abbrev S4194304 : Shape := ⟨1, ![4194304]⟩
abbrev S8x32x32 : Shape := ⟨3, ![8, 32, 32]⟩
abbrev S_ : Shape := ⟨0, ![]⟩
abbrev S1x32x32 : Shape := ⟨3, ![1, 32, 32]⟩
abbrev S32x32 : Shape := ⟨2, ![32, 32]⟩

abbrev nBuf : Space → Nat
  | .hbm => 86
  | .vmem => 0
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S4194304, .i32⟩
  | .hbm, ⟨3, _⟩ => ⟨S8x32x32, .f32⟩
  | .hbm, ⟨4, _⟩ => ⟨S_, .f32⟩
  | .hbm, ⟨5, _⟩ => ⟨S4194304, .f32⟩
  | .hbm, ⟨6, _⟩ => ⟨S1x32x32, .f32⟩
  | .hbm, ⟨7, _⟩ => ⟨S32x32, .f32⟩
  | .hbm, ⟨8, _⟩ => ⟨S4194304x32, .f32⟩
  | .hbm, ⟨9, _⟩ => ⟨S4194304x32, .f32⟩
  | .hbm, ⟨10, _⟩ => ⟨S_, .f32⟩
  | .hbm, ⟨11, _⟩ => ⟨S4194304, .f32⟩
  | .hbm, ⟨12, _⟩ => ⟨S_, .i32⟩
  | .hbm, ⟨13, _⟩ => ⟨S4194304, .i32⟩
  | .hbm, ⟨14, _⟩ => ⟨S4194304, .i1⟩
  | .hbm, ⟨15, _⟩ => ⟨S4194304, .f32⟩
  | .hbm, ⟨16, _⟩ => ⟨S1x32x32, .f32⟩
  | .hbm, ⟨17, _⟩ => ⟨S32x32, .f32⟩
  | .hbm, ⟨18, _⟩ => ⟨S4194304x32, .f32⟩
  | .hbm, ⟨19, _⟩ => ⟨S4194304x32, .f32⟩
  | .hbm, ⟨20, _⟩ => ⟨S_, .f32⟩
  | .hbm, ⟨21, _⟩ => ⟨S4194304, .f32⟩
  | .hbm, ⟨22, _⟩ => ⟨S_, .i32⟩
  | .hbm, ⟨23, _⟩ => ⟨S4194304, .i32⟩
  | .hbm, ⟨24, _⟩ => ⟨S4194304, .i1⟩
  | .hbm, ⟨25, _⟩ => ⟨S4194304, .f32⟩
  | .hbm, ⟨26, _⟩ => ⟨S1x32x32, .f32⟩
  | .hbm, ⟨27, _⟩ => ⟨S32x32, .f32⟩
  | .hbm, ⟨28, _⟩ => ⟨S4194304x32, .f32⟩
  | .hbm, ⟨29, _⟩ => ⟨S4194304x32, .f32⟩
  | .hbm, ⟨30, _⟩ => ⟨S_, .f32⟩
  | .hbm, ⟨31, _⟩ => ⟨S4194304, .f32⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S4194304, .f32⟩
  | .hbm, ⟨36, _⟩ => ⟨S1x32x32, .f32⟩
  | .hbm, ⟨37, _⟩ => ⟨S32x32, .f32⟩
  | .hbm, ⟨38, _⟩ => ⟨S4194304x32, .f32⟩
  | .hbm, ⟨39, _⟩ => ⟨S4194304x32, .f32⟩
  | .hbm, ⟨40, _⟩ => ⟨S_, .f32⟩
  | .hbm, ⟨41, _⟩ => ⟨S4194304, .f32⟩
  | .hbm, ⟨42, _⟩ => ⟨S_, .i32⟩
  | .hbm, ⟨43, _⟩ => ⟨S4194304, .i32⟩
  | .hbm, ⟨44, _⟩ => ⟨S4194304, .i1⟩
  | .hbm, ⟨45, _⟩ => ⟨S4194304, .f32⟩
  | .hbm, ⟨46, _⟩ => ⟨S1x32x32, .f32⟩
  | .hbm, ⟨47, _⟩ => ⟨S32x32, .f32⟩
  | .hbm, ⟨48, _⟩ => ⟨S4194304x32, .f32⟩
  | .hbm, ⟨49, _⟩ => ⟨S4194304x32, .f32⟩
  | .hbm, ⟨50, _⟩ => ⟨S_, .f32⟩
  | .hbm, ⟨51, _⟩ => ⟨S4194304, .f32⟩
  | .hbm, ⟨52, _⟩ => ⟨S_, .i32⟩
  | .hbm, ⟨53, _⟩ => ⟨S4194304, .i32⟩
  | .hbm, ⟨54, _⟩ => ⟨S4194304, .i1⟩
  | .hbm, ⟨55, _⟩ => ⟨S4194304, .f32⟩
  | .hbm, ⟨56, _⟩ => ⟨S1x32x32, .f32⟩
  | .hbm, ⟨57, _⟩ => ⟨S32x32, .f32⟩
  | .hbm, ⟨58, _⟩ => ⟨S4194304x32, .f32⟩
  | .hbm, ⟨59, _⟩ => ⟨S4194304x32, .f32⟩
  | .hbm, ⟨60, _⟩ => ⟨S_, .f32⟩
  | .hbm, ⟨61, _⟩ => ⟨S4194304, .f32⟩
  | .hbm, ⟨62, _⟩ => ⟨S_, .i32⟩
  | .hbm, ⟨63, _⟩ => ⟨S4194304, .i32⟩
  | .hbm, ⟨64, _⟩ => ⟨S4194304, .i1⟩
  | .hbm, ⟨65, _⟩ => ⟨S4194304, .f32⟩
  | .hbm, ⟨66, _⟩ => ⟨S1x32x32, .f32⟩
  | .hbm, ⟨67, _⟩ => ⟨S32x32, .f32⟩
  | .hbm, ⟨68, _⟩ => ⟨S4194304x32, .f32⟩
  | .hbm, ⟨69, _⟩ => ⟨S4194304x32, .f32⟩
  | .hbm, ⟨70, _⟩ => ⟨S_, .f32⟩
  | .hbm, ⟨71, _⟩ => ⟨S4194304, .f32⟩
  | .hbm, ⟨72, _⟩ => ⟨S_, .i32⟩
  | .hbm, ⟨73, _⟩ => ⟨S4194304, .i32⟩
  | .hbm, ⟨74, _⟩ => ⟨S4194304, .i1⟩
  | .hbm, ⟨75, _⟩ => ⟨S4194304, .f32⟩
  | .hbm, ⟨76, _⟩ => ⟨S1x32x32, .f32⟩
  | .hbm, ⟨77, _⟩ => ⟨S32x32, .f32⟩
  | .hbm, ⟨78, _⟩ => ⟨S4194304x32, .f32⟩
  | .hbm, ⟨79, _⟩ => ⟨S4194304x32, .f32⟩
  | .hbm, ⟨80, _⟩ => ⟨S_, .f32⟩
  | .hbm, ⟨81, _⟩ => ⟨S4194304, .f32⟩
  | .hbm, ⟨82, _⟩ => ⟨S_, .i32⟩
  | .hbm, ⟨83, _⟩ => ⟨S4194304, .i32⟩
  | .hbm, ⟨84, _⟩ => ⟨S4194304, .i1⟩
  | .hbm, ⟨85, _⟩ => ⟨S4194304, .f32⟩
  | _, _ => ⟨S4194304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_c_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_c_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_c_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  slices_S8x32x32_S1x32x32_0_0_0 : S8x32x32.Slices ![0, 0, 0] S1x32x32
  shapeCasts_S1x32x32_S32x32 : S1x32x32.ShapeCasts S32x32
  reducesTo_S4194304x32_S4194304_d1 : S4194304x32.ReducesTo [1] S4194304
  h_S_ : 0 < S_.numel
  slices_S8x32x32_S1x32x32_1_0_0 : S8x32x32.Slices ![1, 0, 0] S1x32x32
  slices_S8x32x32_S1x32x32_2_0_0 : S8x32x32.Slices ![2, 0, 0] S1x32x32
  slices_S8x32x32_S1x32x32_3_0_0 : S8x32x32.Slices ![3, 0, 0] S1x32x32
  slices_S8x32x32_S1x32x32_4_0_0 : S8x32x32.Slices ![4, 0, 0] S1x32x32
  slices_S8x32x32_S1x32x32_5_0_0 : S8x32x32.Slices ![5, 0, 0] S1x32x32
  slices_S8x32x32_S1x32x32_6_0_0 : S8x32x32.Slices ![6, 0, 0] S1x32x32
  slices_S8x32x32_S1x32x32_7_0_0 : S8x32x32.Slices ![7, 0, 0] S1x32x32
  dot_S4194304x32_S32x32_S4194304x32_1_0_0_1_n_n_wf : DotDims.WF S4194304x32 S32x32 S4194304x32 [1] [0] [0] [1] [] []

variable [Facts₀]

def dot_S4194304x32_S32x32_S4194304x32_1_0_0_1_n_n : DotDims S4194304x32 S32x32 S4194304x32 where
  lhsContracting := [1]
  rhsContracting := [0]
  lhsNonContracting := [0]
  rhsNonContracting := [1]
  lhsBatch := []
  rhsBatch := []
  wf := dot_S4194304x32_S32x32_S4194304x32_1_0_0_1_n_n_wf

class Facts : Prop extends Facts₀ where

variable [Facts]
-- ==== Proof.Spec.lean ====
/-
  The function both programs compute, stated once over plain index types.

  For an edge `e` with head row `l = L[e, ·]`, tail row `r = R[e, ·]` (both of length 32), relation id
  `rid = ids[e]` and the eight 32 × 32 relation matrices `W[0..7]`, the score is chosen by a chain of
  eight selections, relation 0 innermost and relation 7 outermost, starting from zero:

      score = sel₇ (sel₆ ( … (sel₀ 0))),   sel_n prev = if rid = n then bil l r W[n] else prev,
      bil l r w = Σ_j (Σ_k l k · w k j) · r j.

  Since `rid` equals at most one of 0..7 the chain returns the bilinear form of the edge's own relation,
  and zero for an id outside 0..7; nothing below needs that reading, only the chain itself.
  Everything is over the extended reals; no law beyond reindexing a finite sum is used, so no
  finiteness of the entries is needed.
-/
import Idealize.ShloMosaic.PureOps.Ideal
import Idealize.ShloMosaic.PureOps.Ideal.Laws
import Idealize.ShloMosaic.Lib.ValueIdx

noncomputable section

namespace DistMult

open Idealize.ShloMosaic Idealize.ShloMosaic.ValueIdx

/-- The bilinear form `l · w · r` of two rows of length 32 and a 32 × 32 matrix: first the row-times-matrix
    product, column by column, then its dot product with `r`. -/
def bil (l r : Fin 32 → EReal) (w : Fin 32 → Fin 32 → EReal) : EReal :=
  ∑ j : Fin 32, (∑ k : Fin 32, l k * w k j) * r j

/-- One link of the selection chain: the candidate `s` where the relation id is `n`, else what came before. -/
def pick (rid n : BitVec 32) (s prev : EReal) : EReal :=
  Scalar.select (IntOp.cmpi .eq rid n) s prev

/-- The score of one edge: the selection chain over the eight relations, from zero. -/
def score (l r : Fin 32 → EReal) (w : Fin 8 → Fin 32 → Fin 32 → EReal) (rid : BitVec 32) : EReal :=
  pick rid 7#32 (bil l r (w 7)) <| pick rid 6#32 (bil l r (w 6)) <| pick rid 5#32 (bil l r (w 5)) <|
  pick rid 4#32 (bil l r (w 4)) <| pick rid 3#32 (bil l r (w 3)) <| pick rid 2#32 (bil l r (w 2)) <|
  pick rid 1#32 (bil l r (w 1)) <| pick rid 0#32 (bil l r (w 0)) 0

/-- Row `e` of an `N × 32` array. -/
def row {N : Nat} (X : (⟨2, ![N, 32]⟩ : Shape).Idx → EReal) (e : Fin N) : Fin 32 → EReal :=
  fun k => X (ix2 e k)

/-- The eight relation matrices of an `8 × 32 × 32` array. -/
def mats (W : (⟨3, ![8, 32, 32]⟩ : Shape).Idx → EReal) : Fin 8 → Fin 32 → Fin 32 → EReal :=
  fun n k j => W (ix3 n k j)

/-- The scores of all `N` edges of head rows `L`, tail rows `R`, relation ids `ids` and matrices `W`. -/
def scores {N : Nat} (L R : (⟨2, ![N, 32]⟩ : Shape).Idx → EReal) (ids : (⟨1, ![N]⟩ : Shape).Idx → BitVec 32)
    (W : (⟨3, ![8, 32, 32]⟩ : Shape).Idx → EReal) : (⟨1, ![N]⟩ : Shape).Idx → EReal :=
  fun i => score (row L (i 0)) (row R (i 0)) (mats W) (ids i)

end DistMult

end
-- ==== Proof.KernelChunk.lean ====
/-
  One trip of the kernel's loop works on a chunk of 512 edges: it loads the chunk's 512 head rows, 512 tail
  rows and 512 relation ids, and the eight 32 × 32 relation matrices, and stores one vector of 512 scores.
  This module reads that vector at an edge `p` of the chunk. For each relation `n` the body forms the
  candidate  Σ_j (Σ_k head[p, k] · W[n, k, j]) · tail[p, j]  — a matrix product into a zero accumulator, an
  elementwise product with the tail rows, and a sum along the row (the narrowing of the operands to a
  shorter float format changes nothing over the extended reals) — and keeps it where the edge's relation id
  is `n`; the eight selections are nested with relation 0 innermost, over a vector of zeros. So the stored
  value at `p` is the selection chain `DistMult.score` of row `p` of the loads.
-/
import proofs.«409006_j1700807049273_3_alg».proof.Proof.Gen.KernelIdeal.Skeleton
import proofs.«409006_j1700807049273_3_alg».proof.Proof.Spec
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx

variable {F : FTy → Type} [FloatOps F]

/-- The candidate of one relation on a chunk: head rows `l` times the relation's matrix (the slab `w` of
    shape 1 × 32 × 32 read as 32 × 32), times the tail rows `r` entry by entry, summed along each row. -/
def cand (l r : Vec F S512x32 .f32) (w : Vec F S1x32x32 .f32) : FVec F S512 .f32 :=
  multiReduction .add [1] S512
    (mulf (matmul dot_S512x32_S32x32_S512x32_1_0_0_1_n_n none (k0_pay2 l)
      (truncf .bf16 (shapeCast S32x32 w shapeCasts_S1x32x32_S32x32) bitsLt_bf16_f32)
      (constant S512x32 .f32 0x00000000#32)) r)
    0x00000000#32 reduces_S512x32_S512 (.inl rfl) rfl

/-- One link of the chain on a chunk: relation `n`'s candidate where the id is `n`, else `prev`. -/
def link (n : BitVec 32) (ids : Vec F S512 .i32) (s prev : FVec F S512 .f32) : FVec F S512 .f32 :=
  select (cmpi .eq ids (broadcast S512 n)) s prev

/-- The vector of 512 scores a trip stores, as a function of what the trip loads. -/
def chunkPay (l r : Vec F S512x32 .f32) (ids : Vec F S512 .i32) (w0 w1 w2 w3 w4 w5 w6 w7 : Vec F S1x32x32 .f32) :
    FVec F S512 .f32 :=
  k0_pay1 (k0_pay2 l) r ids (k0_pay4 (k0_pay2 l) r ids (k0_pay3 l r ids w0 w1 w2) w3 w4 w5 w6) w7

/-- The stored vector is the chain of eight links, relation 0 innermost, over zeros. -/
theorem chunkPay_eq_links (l r : Vec F S512x32 .f32) (ids : Vec F S512 .i32) (w0 w1 w2 w3 w4 w5 w6 w7 : Vec F S1x32x32 .f32) :
    chunkPay l r ids w0 w1 w2 w3 w4 w5 w6 w7
      = link 7#32 ids (cand l r w7) (link 6#32 ids (cand l r w6) (link 5#32 ids (cand l r w5) (link 4#32 ids (cand l r w4)
          (link 3#32 ids (cand l r w3) (link 2#32 ids (cand l r w2) (link 1#32 ids (cand l r w1)
            (link 0#32 ids (cand l r w0) (broadcast S512 (Scalar.ofBits .f32 0x00000000#32))))))))) := rfl

/-! ## One candidate at an edge of the chunk -/

theorem lhs_ax0 (i : S512x32.Idx) (q : dot_S512x32_S32x32_S512x32_1_0_0_1_n_n.contr.Idx) :
    (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
theorem lhs_ax1 (i : S512x32.Idx) (q : dot_S512x32_S32x32_S512x32_1_0_0_1_n_n.contr.Idx) :
    (dot_S512x32_S32x32_S512x32_1_0_0_1_n_n.lhsIdx i q 1).val = (q ⟨0, by decide⟩).val :=
  dot_S512x32_S32x32_S512x32_1_0_0_1_n_n.lhsIdx_val_of_single rfl i q
theorem rhs_ax0 (i : S512x32.Idx) (q : dot_S512x32_S32x32_S512x32_1_0_0_1_n_n.contr.Idx) :
    (dot_S512x32_S32x32_S512x32_1_0_0_1_n_n.rhsIdx i q 0).val = (q ⟨0, by decide⟩).val :=
  dot_S512x32_S32x32_S512x32_1_0_0_1_n_n.rhsIdx_val_of_single rfl i q
theorem rhs_ax1 (i : S512x32.Idx) (q : dot_S512x32_S32x32_S512x32_1_0_0_1_n_n.contr.Idx) :
    (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl

/-- The 32 × 32 reading of a 1 × 32 × 32 slab, narrowed: entry (k, j) is the slab's entry (0, k, j). -/
theorem slab_apply (w : Vec Ideal S1x32x32 .f32) (k j : Fin 32) :
    (truncf .bf16 (shapeCast S32x32 w shapeCasts_S1x32x32_S32x32) bitsLt_bf16_f32 : FVec Ideal S32x32 .bf16) (ix2 k j)
      = w (ix3 (0 : Fin 1) k j) := by
  rw [truncf_apply]
  refine shapeCast_apply w shapeCasts_S1x32x32_S32x32 (ix2 k j) (ix3 (0 : Fin 1) k j) ?_
  rewrite [Shape.rowMajor_val_three, Shape.rowMajor_val_two]
  show (0 * 32 + k.val) * 32 + j.val = k.val * 32 + j.val
  omega

/-- The product of the head rows with one relation's matrix, at row `p` and column `j`. -/
theorem prod_apply (l : Vec Ideal S512x32 .f32) (w : Vec Ideal S1x32x32 .f32) (p : Fin 512) (j : Fin 32) :
    matmul dot_S512x32_S32x32_S512x32_1_0_0_1_n_n none (k0_pay2 (F := Ideal) l)
        (truncf .bf16 (shapeCast S32x32 w shapeCasts_S1x32x32_S32x32) bitsLt_bf16_f32)
        (constant S512x32 .f32 0x00000000#32) (ix2 p j)
      = ∑ k : Fin 32, l (ix2 p k) * w (ix3 (0 : Fin 1) k j) := by
  refine (Ideal.matmul_constant_zero_apply dot_S512x32_S32x32_S512x32_1_0_0_1_n_n none _ _ (ix2 p j)).trans ?_
  rw [← Equiv.sum_comp (ValueIdx.contrEquiv1 dot_S512x32_S32x32_S512x32_1_0_0_1_n_n 32 rfl rfl).symm]
  refine Finset.sum_congr rfl fun k _ => ?_
  have hk := ValueIdx.contrEquiv1_symm_val dot_S512x32_S32x32_S512x32_1_0_0_1_n_n 32 rfl rfl k
  have el : dot_S512x32_S32x32_S512x32_1_0_0_1_n_n.lhsIdx (ix2 p j) ((ValueIdx.contrEquiv1 dot_S512x32_S32x32_S512x32_1_0_0_1_n_n 32 rfl rfl).symm k) = ix2 p k := funext fun a => Fin.ext (by
    match a with
    | ⟨0, _⟩ => exact lhs_ax0 _ _
    | ⟨1, _⟩ => exact (lhs_ax1 _ _).trans hk)
  have er : dot_S512x32_S32x32_S512x32_1_0_0_1_n_n.rhsIdx (ix2 p j) ((ValueIdx.contrEquiv1 dot_S512x32_S32x32_S512x32_1_0_0_1_n_n 32 rfl rfl).symm k) = ix2 k j := funext fun a => Fin.ext (by
    match a with
    | ⟨0, _⟩ => exact (rhs_ax0 _ _).trans hk
    | ⟨1, _⟩ => exact rhs_ax1 _ _)
  rw [el, er, slab_apply]
  rfl

/-- One relation's candidate at edge `p` of the chunk is the bilinear form of row `p`. -/
theorem cand_apply (l r : Vec Ideal S512x32 .f32) (w : Vec Ideal S1x32x32 .f32) (p : Fin 512) :
    cand (F := Ideal) l r w (ix1 p)
      = DistMult.bil (fun k => l (ix2 p k)) (fun j => r (ix2 p j)) (fun k j => w (ix3 (0 : Fin 1) k j)) := by
  unfold cand DistMult.bil
  refine (Ideal.multiReduction_add_single _ 0x00000000#32 reduces_S512x32_S512 (.inl rfl) rfl (ix1 p)).trans ?_
  refine Finset.sum_congr rfl fun (j : Fin 32) _ => ?_
  have hj : reduces_S512x32_S512.lift (ix1 p) j = ix2 p j :=
    funext fun a => Fin.ext (by match a with | ⟨0, _⟩ => rfl | ⟨1, _⟩ => rfl)
  rw [hj]
  exact congrArg (· * r (ix2 p j)) (prod_apply l w p j)

/-! ## The stored vector at an edge of the chunk -/

/-- A link at an edge. -/
theorem link_apply (n : BitVec 32) (ids : Vec Ideal S512 .i32) (s prev : FVec Ideal S512 .f32) (i : S512.Idx) :
    link (F := Ideal) n ids s prev i = DistMult.pick (ids i) n (s i) (prev i) := rfl

/-- The zero the chain starts from. -/
theorem start_apply (i : S512.Idx) :
    (broadcast S512 (Scalar.ofBits (F := Ideal) .f32 0x00000000#32) : FVec Ideal S512 .f32) i = 0 :=
  Ideal.ofBits_zero_f32

/-- The relation matrix a 1 × 32 × 32 slab holds. -/
def slabMat (w : Vec Ideal S1x32x32 .f32) : Fin 32 → Fin 32 → EReal := fun k j => w (ix3 (0 : Fin 1) k j)

/-- THE STORED VECTOR AT EDGE `p` OF THE CHUNK: the selection chain over the eight relations of the bilinear forms
    of row `p` of the loaded head and tail rows with the eight loaded matrices, by the loaded id. -/
theorem chunkPay_apply (l r : Vec Ideal S512x32 .f32) (ids : Vec Ideal S512 .i32)
    (w0 w1 w2 w3 w4 w5 w6 w7 : Vec Ideal S1x32x32 .f32) (p : Fin 512) :
    chunkPay (F := Ideal) l r ids w0 w1 w2 w3 w4 w5 w6 w7 (ix1 p)
      = DistMult.score (fun k => l (ix2 p k)) (fun j => r (ix2 p j))
          (fun n => slabMat (![w0, w1, w2, w3, w4, w5, w6, w7] n)) (ids (ix1 p)) := by
  rw [chunkPay_eq_links]
  simp only [link_apply, cand_apply, start_apply]
  rfl

end Cert.KernelIdeal.Chunk

end
-- ==== Proof.KernelBlock.lean ====
/-
  What one run of the kernel body leaves in the output block, as one function of the input blocks.

  The body is a loop of 32 trips; trip `k` stores, at offset 512·k of the 16384-long output block, the vector
  of 512 scores computed from rows 512·k … 512·k+511 of the head and tail blocks, entries 512·k … of the id
  block, and the eight relation matrices. So every stored piece is the restriction to its rectangle of ONE
  function of the block index, `DistMult.scores` of the four input blocks, and since the 32 pieces tile the
  block, the block ends holding that function.
-/
import proofs.«409006_j1700807049273_3_alg».proof.Proof.Gen.KernelIdeal.Frame
import proofs.«409006_j1700807049273_3_alg».proof.Proof.KernelChunk

set_option maxRecDepth 16384

noncomputable section

namespace Cert.KernelIdeal.Block

open Cert.KernelIdeal Cert.KernelIdeal.Gen Cert.KernelIdeal.Chunk Idealize.ShloMosaic Idealize.ShloMosaic.TcCoe
open Idealize.ShloMosaic.Tactic Idealize.ShloMosaic.ValueIdx Idealize.SL Idealize.SL.Sem

variable {F : FTy → Type} [FloatOps F]

/-! ## The pieces the run found -/

/-- What trip `k` loads of contents reading `x0 x1 x2 x3`, put through the trip's arithmetic. -/
def tripPay (x0 x1 : Vec F S16384x32 .f32) (x2 : Vec F S16384 .i32) (x3 : Vec F S8x32x32 .f32)
    (k : Fin k0_t1_loop.trips) : FVec F S512 .f32 :=
  chunkPay
    (View.ld x0 (Rect.unit (s := S16384x32) (k0_off1 k) S512x32.size (k0_off1_inb k)))
    (View.ld x1 (Rect.unit (s := S16384x32) (k0_off1 k) S512x32.size (k0_off1_inb k)))
    (View.ld x2 (Rect.unit (s := S16384) (k0_off2 k) S512.size (k0_off2_inb k)))
    (View.ld x3 (Rect.unit (s := S8x32x32) ![0, 0, 0] S1x32x32.size inb_S8x32x32_S1x32x32_0_0_0))
    (View.ld x3 (Rect.unit (s := S8x32x32) ![1, 0, 0] S1x32x32.size inb_S8x32x32_S1x32x32_1_0_0))
    (View.ld x3 (Rect.unit (s := S8x32x32) ![2, 0, 0] S1x32x32.size inb_S8x32x32_S1x32x32_2_0_0))
    (View.ld x3 (Rect.unit (s := S8x32x32) ![3, 0, 0] S1x32x32.size inb_S8x32x32_S1x32x32_3_0_0))
    (View.ld x3 (Rect.unit (s := S8x32x32) ![4, 0, 0] S1x32x32.size inb_S8x32x32_S1x32x32_4_0_0))
    (View.ld x3 (Rect.unit (s := S8x32x32) ![5, 0, 0] S1x32x32.size inb_S8x32x32_S1x32x32_5_0_0))
    (View.ld x3 (Rect.unit (s := S8x32x32) ![6, 0, 0] S1x32x32.size inb_S8x32x32_S1x32x32_6_0_0))
    (View.ld x3 (Rect.unit (s := S8x32x32) ![7, 0, 0] S1x32x32.size inb_S8x32x32_S1x32x32_7_0_0))

/-- TRIP `k` WRITES ONE PIECE: at the trip's offset in the output block, the trip's arithmetic of what it
    loads at the trip's offsets. -/
theorem trip_piece (𝒱 : Variants) (c : Dev nD) (bd : Option 𝒱.V) (i : grid0.Coords) (arg1 : Memref sig .tc .vmem S16384x32 .f32) (harg1 : arg1.IsWhole) (arg2 : Memref sig .tc .vmem S16384x32 .f32) (harg2 : arg2.IsWhole) (arg3 : Memref sig .tc .vmem S16384 .i32) (harg3 : arg3.IsWhole) (arg4 : Memref sig .tc .vmem S8x32x32 .f32) (harg4 : arg4.IsWhole) (arg5 : Memref sig .tc .vmem S16384 .f32) (harg5 : arg5.IsWhole)
    (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips) :
    tripL_k0_t1 (F := F) 𝒱 c bd i arg1 harg1 arg2 harg2 arg3 harg3 arg4 harg4 arg5 harg5 X1 X2 X3 X4 k
      = [⟨Rect.unit (s := S16384) (k0_off2 k) S512.size (k0_off2_inb k),
          tripPay (arg1.view.read (Elt F) X1) (arg2.view.read (Elt F) X2) (arg3.view.read (Elt F) X3) (arg4.view.read (Elt F) X4) k⟩] := by
  unfold tripL_k0_t1 trip_k0_t1
  dsimp only
  sl_unfold_run_names
  rfl

/-- THE RUN'S PIECES are those of the 32 trips, over the staged blocks. -/
theorem run_pieces (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S16384 .i32) (harg3 : arg3.IsWhole) (arg4 : Memref sig .tc .vmem S8x32x32 .f32) (harg4 : arg4.IsWhole) (arg5 : Memref sig .tc .vmem S16384 .f32) (harg5 : arg5.IsWhole)
    (x0 : Vec F S16384x32 .f32) (x1 : Vec F S16384x32 .f32) (x2 : Vec F S16384 .i32) (x3 : Vec F S8x32x32 .f32) :
    (kernelRun0_A (F := F) c i arg1 harg1 arg2 harg2 arg3 harg3 arg4 harg4 arg5 harg5 x0 x1 x2 x3).1
      = pb_k0_t1 (F := F) Variants.none c none i arg1 harg1 arg2 harg2 arg3 harg3 arg4 harg4 arg5 harg5
          (harg1.unread x0) (harg2.unread x1) (harg3.unread x2) (harg4.unread x3) k0_t1_loop.trips := by
  unfold kernelRun0_A
  dsimp only

/-! ## Each piece is a block of one function of the block index -/

/-- The scores of the 16384 edges whose rows and ids are the four input blocks. -/
abbrev blockScores (x0 x1 : Vec Ideal S16384x32 .f32) (x2 : Vec Ideal S16384 .i32) (x3 : Vec Ideal S8x32x32 .f32) :
    Vec Ideal S16384 .f32 :=
  DistMult.scores (N := 16384) x0 x1 x2 x3

/-- Slab `n` of the matrices' block, read as a 32 × 32 matrix, is relation `n`'s matrix. -/
theorem slab_eq (x3 : Vec Ideal S8x32x32 .f32) (n : Fin 8) (off : Fin 3 → Nat) (hoff : off = ![n.val, 0, 0])
    (inb : ∀ a, off a + S1x32x32.size a ≤ S8x32x32.size a) :
    slabMat (View.ld x3 (Rect.unit (s := S8x32x32) off S1x32x32.size inb)) = DistMult.mats x3 n := by
  subst hoff
  funext k j
  show x3 _ = x3 _
  refine congrArg x3 (funext fun a => Fin.ext ?_)
  match a with
  | ⟨0, _⟩ => show n.val + 1 * 0 = n.val; omega
  | ⟨1, _⟩ => show 0 + 1 * k.val = k.val; omega
  | ⟨2, _⟩ => show 0 + 1 * j.val = j.val; omega

/-- Row `p` of the 512 rows a trip loads at its offset is row `512·k + p` of the block: the row of the edge the
    trip's store puts at position `p` of its rectangle. -/
theorem rows_eq (x : Vec Ideal S16384x32 .f32) (k : Fin k0_t1_loop.trips) (p : Fin 512) :
    (fun kk : Fin 32 => View.ld x (Rect.unit (s := S16384x32) (k0_off1 k) S512x32.size (k0_off1_inb k)) (ix2 p kk))
      = DistMult.row (N := 16384) x (((Rect.unit (s := S16384) (k0_off2 k) S512.size (k0_off2_inb k)).emb (ix1 p)) 0) := by
  funext kk
  show x _ = x _
  refine congrArg x (funext fun a => Fin.ext ?_)
  have h1 := k0_off1_eq k
  have h2 := k0_off2_eq k
  match a with
  | ⟨0, _⟩ =>
    show k0_off1 k 0 + 1 * p.val = k0_off2 k 0 + 1 * p.val
    rw [h1, h2]; rfl
  | ⟨1, _⟩ =>
    show k0_off1 k 1 + 1 * kk.val = kk.val
    rw [h1]; show 0 + 1 * kk.val = kk.val; omega

/-- TRIP `k`'s PIECE IS A BLOCK OF THE SCORES: at position `p` of its rectangle it holds the score of the block's
    edge at that rectangle's index. -/
theorem tripPay_apply (x0 x1 : Vec Ideal S16384x32 .f32) (x2 : Vec Ideal S16384 .i32) (x3 : Vec Ideal S8x32x32 .f32)
    (k : Fin k0_t1_loop.trips) (p : Fin 512) :
    tripPay (F := Ideal) x0 x1 x2 x3 k (ix1 p)
      = blockScores x0 x1 x2 x3 ((Rect.unit (s := S16384) (k0_off2 k) S512.size (k0_off2_inb k)).emb (ix1 p)) := by
  unfold tripPay
  refine (chunkPay_apply _ _ _ _ _ _ _ _ _ _ _ p).trans ?_
  have hW : (fun n : Fin 8 => slabMat (![
      View.ld x3 (Rect.unit (s := S8x32x32) ![0, 0, 0] S1x32x32.size inb_S8x32x32_S1x32x32_0_0_0),
      View.ld x3 (Rect.unit (s := S8x32x32) ![1, 0, 0] S1x32x32.size inb_S8x32x32_S1x32x32_1_0_0),
      View.ld x3 (Rect.unit (s := S8x32x32) ![2, 0, 0] S1x32x32.size inb_S8x32x32_S1x32x32_2_0_0),
      View.ld x3 (Rect.unit (s := S8x32x32) ![3, 0, 0] S1x32x32.size inb_S8x32x32_S1x32x32_3_0_0),
      View.ld x3 (Rect.unit (s := S8x32x32) ![4, 0, 0] S1x32x32.size inb_S8x32x32_S1x32x32_4_0_0),
      View.ld x3 (Rect.unit (s := S8x32x32) ![5, 0, 0] S1x32x32.size inb_S8x32x32_S1x32x32_5_0_0),
      View.ld x3 (Rect.unit (s := S8x32x32) ![6, 0, 0] S1x32x32.size inb_S8x32x32_S1x32x32_6_0_0),
      View.ld x3 (Rect.unit (s := S8x32x32) ![7, 0, 0] S1x32x32.size inb_S8x32x32_S1x32x32_7_0_0)] n))
      = DistMult.mats x3 := by
    funext n
    match n with
    | ⟨0, _⟩ => exact slab_eq x3 0 _ rfl _
    | ⟨1, _⟩ => exact slab_eq x3 1 _ rfl _
    | ⟨2, _⟩ => exact slab_eq x3 2 _ rfl _
    | ⟨3, _⟩ => exact slab_eq x3 3 _ rfl _
    | ⟨4, _⟩ => exact slab_eq x3 4 _ rfl _
    | ⟨5, _⟩ => exact slab_eq x3 5 _ rfl _
    | ⟨6, _⟩ => exact slab_eq x3 6 _ rfl _
    | ⟨7, _⟩ => exact slab_eq x3 7 _ rfl _
  rw [hW, rows_eq x0 k p, rows_eq x1 k p]
  rfl

/-- EVERY PIECE of the trips before `n` is a block of the scores (induction over the trips). -/
theorem pieces_are_blocks (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S16384 .i32) (harg3 : arg3.IsWhole) (arg4 : Memref sig .tc .vmem S8x32x32 .f32) (harg4 : arg4.IsWhole) (arg5 : Memref sig .tc .vmem S16384 .f32) (harg5 : arg5.IsWhole)
    (x0 x1 : Vec Ideal S16384x32 .f32) (x2 : Vec Ideal S16384 .i32) (x3 : Vec Ideal S8x32x32 .f32) :
    ∀ n : ℕ, n ≤ k0_t1_loop.trips →
      ∀ q ∈ pb_k0_t1 (F := Ideal) Variants.none c none i arg1 harg1 arg2 harg2 arg3 harg3 arg4 harg4 arg5 harg5
          (harg1.unread x0) (harg2.unread x1) (harg3.unread x2) (harg4.unread x3) n,
        ∀ y : q.1.shape.Idx, q.2 y = blockScores x0 x1 x2 x3 (q.1.emb y)
  | 0, _ => fun q hq => absurd hq (by rw [pb_k0_t1.eq_1]; exact List.not_mem_nil)
  | n + 1, hn => by
    intro q hq y
    have hk : n < k0_t1_loop.trips := hn
    rw [pb_k0_t1_succ (F := Ideal) Variants.none c none i arg1 harg1 arg2 harg2 arg3 harg3 arg4 harg4 arg5 harg5
      (harg1.unread x0) (harg2.unread x1) (harg3.unread x2) (harg4.unread x3) ⟨n, hk⟩] at hq
    rcases List.mem_append.mp hq with h | h
    · rw [trip_piece, List.mem_singleton] at h
      subst h
      obtain ⟨p, rfl⟩ : ∃ p : Fin 512, y = ix1 p := ⟨y 0, eq_ix1 y⟩
      show tripPay (F := Ideal) _ _ _ _ _ (ix1 p) = _
      rw [harg1.read_unread, harg2.read_unread, harg3.read_unread, harg4.read_unread]
      exact tripPay_apply x0 x1 x2 x3 ⟨n, hk⟩ p
    · exact pieces_are_blocks c i arg1 harg1 arg2 harg2 arg3 harg3 arg4 harg4 arg5 harg5 x0 x1 x2 x3 n
        (Nat.le_of_succ_le hn) q h y

/-- WHAT THE BODY LEAVES IN THE OUTPUT BLOCK: the scores of the block's 16384 edges — the 32 pieces are blocks of
    that one function and tile the output block. -/
theorem out_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S16384 .i32) (harg3 : arg3.IsWhole) (arg4 : Memref sig .tc .vmem S8x32x32 .f32) (harg4 : arg4.IsWhole) (arg5 : Memref sig .tc .vmem S16384 .f32) (harg5 : arg5.IsWhole)
    (x0 x1 : Vec Ideal S16384x32 .f32) (x2 : Vec Ideal S16384 .i32) (x3 : Vec Ideal S8x32x32 .f32) :
    out0_A_4 (F := Ideal) c i arg1 harg1 arg2 harg2 arg3 harg3 arg4 harg4 arg5 harg5 x0 x1 x2 x3
      = blockScores x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (blockScores x0 x1 x2 x3) _ ?_ y
    (cover0_A_4 c i arg1 harg1 arg2 harg2 arg3 harg3 arg4 harg4 arg5 harg5 x0 x1 x2 x3 y)
  rw [run_pieces]
  exact pieces_are_blocks c i arg1 harg1 arg2 harg2 arg3 harg3 arg4 harg4 arg5 harg5 x0 x1 x2 x3 k0_t1_loop.trips le_rfl

end Cert.KernelIdeal.Block

end
-- ==== Proof.KernelArray.lean ====
/-
  From the blocks to the whole array.

  Grid point `t` (of 256) stages block `t` of the head rows, of the tail rows and of the ids (rows
  16384·t … 16384·t + 16383), the whole table of matrices, and writes back block `t` of the output. The body
  leaves in the output block the scores of the 16384 staged edges; edge `p` of block `t` is edge 16384·t + p of
  the arrays, so what point `t` writes back is block `t` of ONE function of the four argument arrays — the scores
  of all 4194304 edges — and since the 256 blocks tile the output array, the array ends holding that function.
-/
import proofs.«409006_j1700807049273_3_alg».proof.Proof.Gen.KernelIdeal.Value
import proofs.«409006_j1700807049273_3_alg».proof.Proof.KernelBlock

set_option maxRecDepth 16384

noncomputable section

namespace DistMult

open Idealize.ShloMosaic Idealize.ShloMosaic.ValueIdx

/-- The score of an edge depends only on its two rows, its id and the matrices: two edges of two sets of arrays
    that agree on those have the same score. -/
theorem scores_congr {N M : Nat}
    (L R : (⟨2, ![N, 32]⟩ : Shape).Idx → EReal) (ids : (⟨1, ![N]⟩ : Shape).Idx → BitVec 32) (W : (⟨3, ![8, 32, 32]⟩ : Shape).Idx → EReal)
    (L' R' : (⟨2, ![M, 32]⟩ : Shape).Idx → EReal) (ids' : (⟨1, ![M]⟩ : Shape).Idx → BitVec 32) (W' : (⟨3, ![8, 32, 32]⟩ : Shape).Idx → EReal)
    (i : (⟨1, ![N]⟩ : Shape).Idx) (i' : (⟨1, ![M]⟩ : Shape).Idx)
    (hL : ∀ kk : Fin 32, L (ix2 (i 0) kk) = L' (ix2 (i' 0) kk)) (hR : ∀ kk : Fin 32, R (ix2 (i 0) kk) = R' (ix2 (i' 0) kk))
    (hid : ids i = ids' i') (hW : ∀ (n : Fin 8) (k j : Fin 32), W (ix3 n k j) = W' (ix3 n k j)) :
    scores L R ids W i = scores L' R' ids' W' i' := by
  unfold scores
  have e1 : row L (i 0) = row L' (i' 0) := funext hL
  have e2 : row R (i 0) = row R' (i' 0) := funext hR
  have e3 : mats W = mats W' := funext fun n => funext fun k => funext fun j => hW n k j
  rw [e1, e2, e3, hid]

end DistMult

namespace Cert.KernelIdeal.Whole

open Cert.KernelIdeal Cert.KernelIdeal.Gen Cert.KernelIdeal.Value Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The scores of all edges, of the argument arrays as launched. -/
abbrev allScores (c : Dev nD) : S4194304.Idx → Elt Ideal .f32 :=
  DistMult.scores (N := 4194304) (m ((c : Thread nD τ).loc main_arg0)) (m ((c : Thread nD τ).loc main_arg1))
    (m ((c : Thread nD τ).loc main_arg2)) (m ((c : Thread nD τ).loc main_arg3))

/-- The printed index maps over the grid: the row blocks and the output block move with the point, the second axis
    and the table of matrices stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_3.index t (0 : Fin 3) = 0 ∧ win0_3.index t (1 : Fin 3) = 0 ∧ win0_3.index t (2 : Fin 3) = 0
    ∧ win0_4.index t (0 : Fin 1) = t.val :=
  (by decide +kernel : ∀ t : Fin grid0.N, _)

/-- WHAT POINT `t` WRITES BACK is block `t` of the scores of all edges. -/
theorem flushed_eq (c : Dev nD) (t : Fin cfg0.N) :
    (dats m 0 c).flushed 4 t = ((cfg0.win 4).blk t).view.read (Elt Ideal) (allScores m c) := by
  refine (flushed4_A m c t).trans ?_
  rw [out_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)]
  obtain ⟨a0, a1, b0, b1, c0, d0, d1, d2, e0⟩ := idx_facts t
  funext y
  have hy : (y 0).val < 16384 := (y 0).isLt
  show DistMult.scores (N := 16384) (iblk m c 0 t) (iblk m c 1 t) (iblk m c 2 t) (iblk m c 3 t) ((cfg0.win 4).xinj (grid0.coords t) y)
      = DistMult.scores (N := 4194304) (V m c main_arg0) (V m c main_arg1) (V m c main_arg2) (V m c main_arg3) (((cfg0.win 4).blk t).view.emb y)
  refine DistMult.scores_congr _ _ _ _ _ _ _ _ _ _ ?_ ?_ ?_ ?_
  · intro kk
    show V m c main_arg0 (((cfg0.win 0).blk t).view.emb _) = V m c main_arg0 _
    refine congrArg (V m c main_arg0) (funext fun a => Fin.ext ?_)
    match a with
    | ⟨0, _⟩ => show win0_0.index t (0 : Fin 2) * 16384 + 1 * (y 0).val = win0_4.index t (0 : Fin 1) * 16384 + 1 * (y 0).val; omega
    | ⟨1, _⟩ => show win0_0.index t (1 : Fin 2) * 32 + 1 * kk.val = kk.val; omega
  · intro kk
    show V m c main_arg1 (((cfg0.win 1).blk t).view.emb _) = V m c main_arg1 _
    refine congrArg (V m c main_arg1) (funext fun a => Fin.ext ?_)
    match a with
    | ⟨0, _⟩ => show win0_1.index t (0 : Fin 2) * 16384 + 1 * (y 0).val = win0_4.index t (0 : Fin 1) * 16384 + 1 * (y 0).val; omega
    | ⟨1, _⟩ => show win0_1.index t (1 : Fin 2) * 32 + 1 * kk.val = kk.val; omega
  · show V m c main_arg2 (((cfg0.win 2).blk t).view.emb _) = V m c main_arg2 _
    refine congrArg (V m c main_arg2) (funext fun a => Fin.ext ?_)
    match a with
    | ⟨0, _⟩ => show win0_2.index t (0 : Fin 1) * 16384 + 1 * (y 0).val = win0_4.index t (0 : Fin 1) * 16384 + 1 * (y 0).val; omega
  · intro n k j
    show V m c main_arg3 (((cfg0.win 3).blk t).view.emb _) = V m c main_arg3 _
    refine congrArg (V m c main_arg3) (funext fun a => Fin.ext ?_)
    match a with
    | ⟨0, _⟩ => show win0_3.index t (0 : Fin 3) * 8 + 1 * n.val = n.val; omega
    | ⟨1, _⟩ => show win0_3.index t (1 : Fin 3) * 32 + 1 * k.val = k.val; omega
    | ⟨2, _⟩ => show win0_3.index t (2 : Fin 3) * 32 + 1 * j.val = j.val; omega

/-- An index of the output array is in point `t`'s block iff it lies in rows 16384·t … 16384·t + 16383. -/
theorem mem_blk (t : Fin cfg0.N) (i : S4194304.Idx) :
    i ∈ ((cfg0.win 4).blk t).view.set ↔ ∀ a : Fin 1, win0_4.index t a * S16384.size a ≤ (i a).val ∧ (i a).val < win0_4.index t a * S16384.size a + S16384.size a := by
  show i ∈ ((View.whole main_v0).slice (win0_4.rect t)).set ↔ _
  rw [View.set_slice_whole, Rect.mem_set_unit]
  exact Iff.rfl

/-- Every edge is in some point's block: edge `e` in that of point `e / 16384`. -/
theorem cover (i : S4194304.Idx) : ∃ t : Fin cfg0.N, (cfg0.win 4).flush t = true ∧ i ∈ ((cfg0.win 4).blk t).view.set := by
  have hi : (i 0).val < 4194304 := (i 0).isLt
  have hN : grid0.N = 256 := N_0
  refine ⟨⟨(i 0).val / 16384, by show (i 0).val / 16384 < grid0.N; omega⟩, flush0_4 _, ?_⟩
  rw [mem_blk]
  intro a
  obtain ⟨-, -, -, -, -, -, -, -, e0⟩ := idx_facts ⟨(i 0).val / 16384, by show (i 0).val / 16384 < grid0.N; omega⟩
  match a with
  | ⟨0, _⟩ =>
    show win0_4.index _ (0 : Fin 1) * 16384 ≤ (i 0).val ∧ (i 0).val < win0_4.index _ (0 : Fin 1) * 16384 + 16384
    rw [e0]
    show (i 0).val / 16384 * 16384 ≤ (i 0).val ∧ (i 0).val < (i 0).val / 16384 * 16384 + 16384
    omega

/-- THE OUTPUT ARRAY after the run holds the scores of all edges. -/
theorem final (c : Dev nD) : (dats m 0 c).arrAt 4 cfg0.N = allScores m c :=
  (dats m 0 c).arrAt_eq_of_cover 4 (allScores m c) (fun t _ => flushed_eq m c t) cover

/-- The kernel's run, read: the result array at the scores of the argument arrays, the arguments unchanged. -/
theorem run : θ_run defs (onTc (τ := τ) (main (F := Ideal))) ⟨m, fun _ => 0, ρ⟩ fun r => ∀ c : Dev nD,
      r.2.mem ((c : Thread nD τ).loc main_v0) = allScores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefScores.lean ====
/-
  The reference computes, for every edge, the same selection chain: for each relation `n` it takes the
  `n`-th 32 × 32 matrix out of the table, multiplies all head rows by it, multiplies entry by entry with the
  tail rows, sums along each row from zero, and keeps the result where the edge's relation id equals `n`,
  else what the earlier relations left; relation 0 comes first, over zeros. Read at an edge this is
  `DistMult.score` of the edge's two rows, the table's matrices and the edge's id.
-/
import proofs.«409006_j1700807049273_3_alg».proof.Proof.Gen.ReferenceIdeal.Read
import proofs.«409006_j1700807049273_3_alg».proof.Proof.Spec

noncomputable section

namespace Cert.ReferenceIdeal.Scores

open Cert.ReferenceIdeal Cert.ReferenceIdeal.Read Idealize.ShloMosaic Idealize.ShloMosaic.ValueIdx

variable (x0 x1 : (⟨S4194304x32, .f32⟩ : BufTy).Contents (Elt Ideal)) (x2 : (⟨S4194304, .i32⟩ : BufTy).Contents (Elt Ideal))
  (x3 : (⟨S8x32x32, .f32⟩ : BufTy).Contents (Elt Ideal))

/-- One relation's candidate read at an edge `i`, from the read-at-an-index facts of its six operations (the row
    sum, its zero start, the entrywise product, the matrix product, the reshape and the slice of the table):
    the sum from zero over the columns `j` of (the sum over `kk` of head[i, kk] · table[n, kk, j]) · tail[i, j].
    The index arithmetic: the row sum visits (i, j); the matrix product visits (i, kk) and (kk, j); the reshape
    sends (kk, j) to (0, kk, j) since kk·32 + j splits back into kk and j; the slice adds `n` on the first axis. -/
local macro "read_candidate" s:ident z:ident p:ident d:ident r:ident sl:ident : tactic =>
  `(tactic| (
    rw [$s:ident, $z:ident]
    show Ideal.ofBits .f32 0x00000000#32 + _ = _
    rw [Ideal.ofBits_zero_f32, zero_add]
    unfold DistMult.bil
    refine Finset.sum_congr rfl fun (j : Fin 32) _ => ?_
    rw [$p:ident, $d:ident]
    show (∑ kk : Fin 32, _) * _ = _
    refine congr (congrArg HMul.hMul (Finset.sum_congr rfl fun (kk : Fin 32) _ => ?_)) ?_
    · rw [$r:ident, $sl:ident]
      refine congr (congrArg HMul.hMul (congrArg _ ?_)) (congrArg _ ?_)
      · exact funext fun a => Fin.ext (by match a with | ⟨0, _⟩ => rfl | ⟨1, _⟩ => rfl)
      · refine funext fun a => Fin.ext ?_
        match a with
        | ⟨0, _⟩ => rfl
        | ⟨1, _⟩ => show (kk.val * 32 + j.val) / 32 % 32 = kk.val; omega
        | ⟨2, _⟩ => show (kk.val * 32 + j.val) % 32 = j.val; omega
    · exact congrArg _ (funext fun a => Fin.ext (by match a with | ⟨0, _⟩ => rfl | ⟨1, _⟩ => rfl))))

/-- Relation `n`'s candidate at an edge is the bilinear form of the edge's rows with matrix `n`. -/
theorem cand0 (i : S4194304.Idx) : val_main_v5 (F := Ideal) x0 x1 x3 i
    = DistMult.bil (DistMult.row (N := 4194304) x0 (i 0)) (DistMult.row (N := 4194304) x1 (i 0)) (DistMult.mats x3 0) := by
  read_candidate val_main_v5_apply val_main_cst_0_apply val_main_v4_apply val_main_v3_apply val_main_v2_apply val_main_v1_apply
theorem cand1 (i : S4194304.Idx) : val_main_v13 (F := Ideal) x0 x1 x3 i
    = DistMult.bil (DistMult.row (N := 4194304) x0 (i 0)) (DistMult.row (N := 4194304) x1 (i 0)) (DistMult.mats x3 1) := by
  read_candidate val_main_v13_apply val_main_cst_1_apply val_main_v12_apply val_main_v11_apply val_main_v10_apply val_main_v9_apply
theorem cand2 (i : S4194304.Idx) : val_main_v21 (F := Ideal) x0 x1 x3 i
    = DistMult.bil (DistMult.row (N := 4194304) x0 (i 0)) (DistMult.row (N := 4194304) x1 (i 0)) (DistMult.mats x3 2) := by
  read_candidate val_main_v21_apply val_main_cst_3_apply val_main_v20_apply val_main_v19_apply val_main_v18_apply val_main_v17_apply
theorem cand3 (i : S4194304.Idx) : val_main_v29 (F := Ideal) x0 x1 x3 i
    = DistMult.bil (DistMult.row (N := 4194304) x0 (i 0)) (DistMult.row (N := 4194304) x1 (i 0)) (DistMult.mats x3 3) := by
  read_candidate val_main_v29_apply val_main_cst_5_apply val_main_v28_apply val_main_v27_apply val_main_v26_apply val_main_v25_apply
theorem cand4 (i : S4194304.Idx) : val_main_v37 (F := Ideal) x0 x1 x3 i
    = DistMult.bil (DistMult.row (N := 4194304) x0 (i 0)) (DistMult.row (N := 4194304) x1 (i 0)) (DistMult.mats x3 4) := by
  read_candidate val_main_v37_apply val_main_cst_7_apply val_main_v36_apply val_main_v35_apply val_main_v34_apply val_main_v33_apply
theorem cand5 (i : S4194304.Idx) : val_main_v45 (F := Ideal) x0 x1 x3 i
    = DistMult.bil (DistMult.row (N := 4194304) x0 (i 0)) (DistMult.row (N := 4194304) x1 (i 0)) (DistMult.mats x3 5) := by
  read_candidate val_main_v45_apply val_main_cst_9_apply val_main_v44_apply val_main_v43_apply val_main_v42_apply val_main_v41_apply
theorem cand6 (i : S4194304.Idx) : val_main_v53 (F := Ideal) x0 x1 x3 i
    = DistMult.bil (DistMult.row (N := 4194304) x0 (i 0)) (DistMult.row (N := 4194304) x1 (i 0)) (DistMult.mats x3 6) := by
  read_candidate val_main_v53_apply val_main_cst_11_apply val_main_v52_apply val_main_v51_apply val_main_v50_apply val_main_v49_apply
theorem cand7 (i : S4194304.Idx) : val_main_v61 (F := Ideal) x0 x1 x3 i
    = DistMult.bil (DistMult.row (N := 4194304) x0 (i 0)) (DistMult.row (N := 4194304) x1 (i 0)) (DistMult.mats x3 7) := by
  read_candidate val_main_v61_apply val_main_cst_13_apply val_main_v60_apply val_main_v59_apply val_main_v58_apply val_main_v57_apply

/-- THE REFERENCE'S RESULT is the scores of all 4194304 edges: at an edge, its eight selections — each one a
    comparison of the edge's id with the relation's number, broadcast from a scalar — nest relation 0 innermost over
    a broadcast zero, exactly as `DistMult.score` does. -/
theorem result_eq : val_main_v64 (F := Ideal) x0 x1 x2 x3 = DistMult.scores (N := 4194304) x0 x1 x2 x3 := by
  funext i
  unfold DistMult.scores DistMult.score DistMult.pick
  rw [val_main_v64_apply, val_main_v63_apply, val_main_v62_apply, val_main_c_14_apply, cand7,
    val_main_v56_apply, val_main_v55_apply, val_main_v54_apply, val_main_c_12_apply, cand6,
    val_main_v48_apply, val_main_v47_apply, val_main_v46_apply, val_main_c_10_apply, cand5,
    val_main_v40_apply, val_main_v39_apply, val_main_v38_apply, val_main_c_8_apply, cand4,
    val_main_v32_apply, val_main_v31_apply, val_main_v30_apply, val_main_c_6_apply, cand3,
    val_main_v24_apply, val_main_v23_apply, val_main_v22_apply, val_main_c_4_apply, cand2,
    val_main_v16_apply, val_main_v15_apply, val_main_v14_apply, val_main_c_2_apply, cand1,
    val_main_v8_apply, val_main_v7_apply, val_main_v6_apply, val_main_c_apply, cand0,
    val_main_v0_apply, val_main_cst_apply]
  have h0 : FloatOps.ofBits (F := Ideal) .f32 0x00000000#32 = (0 : EReal) := Ideal.ofBits_zero_f32
  rw [h0]

end Cert.ReferenceIdeal.Scores

end
-- ==== Proof.lean ====
/-
  DistMult scoring: for each of 4194304 edges, score = head · W[rel] · tail, with 32-long embedding rows and eight
  32 × 32 relation matrices, computed on both sides as a chain of eight selections — for each relation `n` the
  bilinear form  Σ_j (Σ_k head[k] · W[n, k, j]) · tail[j]  is kept where the edge's relation id is `n` — starting
  from zero (`DistMult.score`, Proof/Spec.lean).

  The kernel tiles the edges into 256 blocks of 16384 and each block into 32 chunks of 512; per chunk and relation it
  forms the matrix product into a zero accumulator (its operands narrowed to a shorter float format, which changes
  nothing over the extended reals), the product with the tail rows, the row sums, and the selection by id. Read at an
  edge that is the chain above (Proof/KernelChunk.lean); the 32 stores of a block are pieces of one function of the
  block index (Proof/KernelBlock.lean) and the 256 blocks pieces of one function of the edge index
  (Proof/KernelArray.lean). The reference does the same on the whole arrays at once (Proof/RefScores.lean).
  The two results are therefore the same function of the argument arrays; only reindexing of finite sums and
  `0 + x = x` are used, so the finiteness of the inputs is never needed.

  The three frames are the generated ones (the reference's is its generated run with the result dropped); the
  idealization rewrote nothing, so there is nothing to preserve.
-/
import proofs.«409006_j1700807049273_3_alg».proof.Defs
import proofs.«409006_j1700807049273_3_alg».proof.Proof.Gen.Kernel
import proofs.«409006_j1700807049273_3_alg».proof.Proof.Gen.Kernel.Skeleton
import proofs.«409006_j1700807049273_3_alg».proof.Proof.Gen.Kernel.Loops
import proofs.«409006_j1700807049273_3_alg».proof.Proof.Gen.Kernel.Launch
import proofs.«409006_j1700807049273_3_alg».proof.Proof.Gen.Kernel.Points
import proofs.«409006_j1700807049273_3_alg».proof.Proof.Gen.Kernel.Frame
import proofs.«409006_j1700807049273_3_alg».proof.Proof.Gen.KernelIdeal
import proofs.«409006_j1700807049273_3_alg».proof.Proof.Gen.KernelIdeal.Skeleton
import proofs.«409006_j1700807049273_3_alg».proof.Proof.Gen.KernelIdeal.Loops
import proofs.«409006_j1700807049273_3_alg».proof.Proof.Gen.KernelIdeal.Launch
import proofs.«409006_j1700807049273_3_alg».proof.Proof.Gen.KernelIdeal.Points
import proofs.«409006_j1700807049273_3_alg».proof.Proof.Gen.KernelIdeal.Frame
import proofs.«409006_j1700807049273_3_alg».proof.Proof.Gen.ReferenceIdeal
import proofs.«409006_j1700807049273_3_alg».proof.Proof.Gen.Pre_finite_inputs
import proofs.«409006_j1700807049273_3_alg».proof.Proof.Gen.KernelIdeal.Value
import proofs.«409006_j1700807049273_3_alg».proof.Proof.Gen.ReferenceIdeal.Run
import proofs.«409006_j1700807049273_3_alg».proof.Proof.Gen.ReferenceIdeal.Read
import proofs.«409006_j1700807049273_3_alg».proof.Proof.KernelArray
import proofs.«409006_j1700807049273_3_alg».proof.Proof.RefScores
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the four arguments, the kernel's result array and the reference's both end at the
    scores of all edges (`DistMult.scores` of the arguments): the kernel's by its run read block by block, the
    reference's by its run read operation by operation. -/
theorem algebraic : Cert.algebraic_KernelIdeal_ReferenceIdeal := by
  intro m ρ m' ρ' _ hagree
  refine ⟨fun c => Cert.KernelIdeal.Whole.allScores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.Scores.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
